-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel

variable [Facts]

def fn {F : FTy → Type} [FloatOps F] (main_arg0 : FVec F S8x4096 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  main_v3
-- ==== Kernel.lean ====
abbrev S8x4096 : Shape := ⟨2, ![8, 4096]⟩
abbrev S8 : Shape := ⟨1, ![8]⟩
abbrev S8x1 : Shape := ⟨2, ![8, 1]⟩

abbrev nBuf : Space → Nat
  | .hbm => 2
  | .vmem => 2
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .local _ .vmem, ⟨0, _⟩ => ⟨S8x4096, .f32⟩
  | .local _ .vmem, ⟨1, _⟩ => ⟨S8x4096, .f32⟩
  | _, _ => ⟨S8x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S8x4096_S8x4096_0_0 : ∀ a, (![0, 0] : Fin 2 → Nat) a + S8x4096.size a ≤ S8x4096.size a
  h_S8x4096 : 0 < S8x4096.numel
  reduces_S8x4096_S8 : S8x4096.Reduces [1] S8
  shapeCasts_S8_S8x1 : S8.ShapeCasts S8x1
  broadcasts_S8x1_S8x4096 : S8x1.Broadcasts S8x4096
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)

variable [Facts₀]

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096 : Shape := ⟨2, ![8, 4096]⟩
abbrev S8x4096x1 : Shape := ⟨3, ![8, 4096, 1]⟩
abbrev S8x4096x4096 : Shape := ⟨3, ![8, 4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096x1, .f32⟩
  | .hbm, ⟨2, _⟩ => ⟨S8x4096x4096, .f32⟩
  | .hbm, ⟨3, _⟩ => ⟨S_, .f32⟩
  | .hbm, ⟨4, _⟩ => ⟨S8x4096x4096, .f32⟩
  | .hbm, ⟨5, _⟩ => ⟨S8x4096x4096, .f32⟩
  | .hbm, ⟨6, _⟩ => ⟨S8x4096x1, .f32⟩
  | .hbm, ⟨7, _⟩ => ⟨S8x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S8x4096_S8x4096x1_0_1 : S8x4096.BroadcastsInDim S8x4096x1 (![0, 1] : Fin 2 → Fin S8x4096x1.rank)
  bcast_S_S8x4096x4096 : S_.BroadcastsInDim S8x4096x4096 (![] : Fin 0 → Fin S8x4096x4096.rank)
  shapeCasts_S8x4096x1_S8x4096 : S8x4096x1.ShapeCasts S8x4096
  dot_S8x4096x1_S8x4096x1_S8x4096x4096_2_2_1_1_0_0_wf : DotDims.WF S8x4096x1 S8x4096x1 S8x4096x4096 [2] [2] [1] [1] [0] [0]
  dot_S8x4096x4096_S8x4096x1_S8x4096x1_2_1_1_2_0_0_wf : DotDims.WF S8x4096x4096 S8x4096x1 S8x4096x1 [2] [1] [1] [2] [0] [0]

variable [Facts₀]

def dot_S8x4096x1_S8x4096x1_S8x4096x4096_2_2_1_1_0_0 : DotDims S8x4096x1 S8x4096x1 S8x4096x4096 where
  lhsContracting := [2]
  rhsContracting := [2]
  lhsNonContracting := [1]
  rhsNonContracting := [1]
  lhsBatch := [0]
  rhsBatch := [0]
  wf := dot_S8x4096x1_S8x4096x1_S8x4096x4096_2_2_1_1_0_0_wf
def dot_S8x4096x4096_S8x4096x1_S8x4096x1_2_1_1_2_0_0 : DotDims S8x4096x4096 S8x4096x1 S8x4096x1 where
  lhsContracting := [2]
  rhsContracting := [1]
  lhsNonContracting := [1]
  rhsNonContracting := [2]
  lhsBatch := [0]
  rhsBatch := [0]
  wf := dot_S8x4096x4096_S8x4096x1_S8x4096x1_2_1_1_2_0_0_wf

class Facts : Prop extends Facts₀ where

variable [Facts]
-- ==== Proof.Literals.lean ====
/-
  The three float words the two programs spell, as the extended reals they denote:
  `0x41800000` is 16 (the reference's divisor), `0x3D800000` is 2⁻⁴ = 1/16 (the kernel's
  folded reciprocal, an exact dyadic), and `0x7F800000` is +∞ (the bound in the precondition).
-/
import Idealize.ShloMosaic.PureOps.Ideal

noncomputable section

namespace Cert.RowOuter

open Idealize.ShloMosaic

/-- `16.0` denotes the real 16. -/
theorem ofBits_sixteen : Ideal.ofBits .f32 0x41800000#32 = ((16 : ℝ) : EReal) := by
  simp [Ideal.ofBits, Ideal.ieee, -EReal.coe_mul]; norm_num

/-- `0.0625` denotes the real 1/16: the word is the dyadic 2⁻⁴ exactly. -/
theorem ofBits_sixteenth : Ideal.ofBits .f32 0x3D800000#32 = ((1 / 16 : ℝ) : EReal) := by
  simp [Ideal.ofBits, Ideal.ieee, -EReal.coe_mul]; norm_num

/-- The all-ones exponent with a zero fraction denotes +∞. -/
theorem ofBits_inf : Ideal.ofBits .f32 0x7F800000#32 = ⊤ := by
  simp [Ideal.ofBits, Ideal.ieee]

end Cert.RowOuter

end
-- ==== Proof.FiniteRows.lean ====
/-
  What the precondition says of the argument: `finite_inputs` is the conjunction, over every entry, of
  |x| < +∞, so an array that satisfies it holds a real number at every index (the absolute value of
  either infinity is +∞, which is not below +∞).
-/
import proofs.«129249_j661424964229_1_alg».proof.Pre_finite_inputs
import proofs.«129249_j661424964229_1_alg».proof.Proof.Gen.Pre_finite_inputs
import proofs.«129249_j661424964229_1_alg».proof.Proof.Literals
import Idealize.ShloMosaic.Lib.ReduceAll
import Idealize.ShloMosaic.Lib.ValueIdx

noncomputable section

namespace Cert.RowOuter

open Idealize.ShloMosaic Cert.Pre_finite_inputs

/-- The scalar shape has one index. -/
instance subsingleton_scalar_idx : Subsingleton S_.Idx := ⟨fun _ _ => funext fun d => d.elim0⟩

/-- An extended real whose absolute value is below +∞ is a real. -/
theorem real_of_abs_lt_top (a : EReal) (h : max a (-a) < ⊤) : ∃ r : ℝ, a = (r : EReal) := by
  induction a using EReal.rec with
  | bot => simp at h
  | top => simp at h
  | coe r => exact ⟨r, rfl⟩

/-- Under the precondition every entry of the argument is a real number. -/
theorem real_of_pre (x : FVec Ideal S8x4096 .f32)
    (h : Cert.Pre_finite_inputs.fn (F := Ideal) x = fun _ => 1#1) (i : S8x4096.Idx) :
    ∃ r : ℝ, x i = (r : EReal) := by
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_inf] at hc
  have hc' : BitVec.ofBool (decide (max (x i) (-(x i)) < ⊤)) = 1#1 := hc
  refine real_of_abs_lt_top (x i) ?_
  by_contra hn
  rw [decide_eq_false hn] at hc'
  exact absurd hc' (by decide)

end Cert.RowOuter

end
-- ==== Proof.RowLaw.lean ====
/-
  The mathematics of the certificate, with no program in it.

  The kernel scales every entry of a row by the row's sum of squares and by 1/16:
  entry (b, p) becomes  (x b p · Σₖ x b k · x b k) · 1/16  (`rowScaled`).
  The reference builds, per row, the outer product of the row with itself, divides it by 16, and
  contracts it with the row again: entry (b, p) becomes  Σₖ ((Σ_{q<1} x b p · x b k) / 16) · x b k.
  Over a row of REAL numbers the two agree: the inner sum has one term, division by 16 is the product
  with 1/16, and the factor x b p · 1/16 leaves the sum over k (distributivity, which is where the
  entries have to be finite: on the extended reals it fails at the infinities).
-/
import proofs.«129249_j661424964229_1_alg».proof.Proof.Literals
import Idealize.ShloMosaic.Lib.ValueIdx

noncomputable section

namespace Cert.RowOuter

open Idealize.ShloMosaic Idealize.ShloMosaic.ValueIdx

/-- The result both programs compute, as one function of the argument array: entry `y` times the sum
    of squares of `y`'s row, times the word the kernel spells for 1/16. -/
def rowScaled (x : (⟨2, ![8, 4096]⟩ : Shape).Idx → EReal) : (⟨2, ![8, 4096]⟩ : Shape).Idx → EReal :=
  fun y => (x y * ∑ k : Fin 4096, x (ix2 (y 0) k) * x (ix2 (y 0) k)) * Ideal.ofBits .f32 0x3D800000#32

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The law over the reals: contracting (a · f / 16) with f is a · (Σ f²) · 1/16. -/
theorem outer_contract_real {n : ℕ} (a : ℝ) (f : Fin n → ℝ) :
    ∑ k : Fin n, Ideal.div (∑ _q : Fin 1, (a : EReal) * (f k : EReal)) ((16 : ℝ) : EReal) * (f k : EReal)
      = ((a : EReal) * ∑ k : Fin n, (f k : EReal) * (f k : EReal)) * ((1 / 16 : ℝ) : EReal) := by
  simp only [Fin.sum_univ_one, Ideal.div_coe (by norm_num : (16 : ℝ) ≠ 0), ← EReal.coe_mul, ← coe_sum]
  congr 1
  rw [Finset.mul_sum, Finset.sum_mul]
  exact Finset.sum_congr rfl fun k _ => by ring

/-- The same for a row of extended reals every entry of which is a real, with the two programs' words
    for 16 and 1/16 in place. -/
theorem outer_contract_row {n : ℕ} (v : Fin n → EReal) (hv : ∀ k, ∃ r : ℝ, v k = (r : EReal)) (p : Fin n) :
    ∑ k : Fin n, Ideal.div (∑ _q : Fin 1, v p * v k) (Ideal.ofBits .f32 0x41800000#32) * v k
      = (v p * ∑ k : Fin n, v k * v k) * Ideal.ofBits .f32 0x3D800000#32 := by
  choose f hf using hv
  simp only [hf, ofBits_sixteen, ofBits_sixteenth]
  exact outer_contract_real (f p) f

end Cert.RowOuter

end
-- ==== Proof.KernelRows.lean ====
/-
  The kernel, read as one function of the argument array. The grid has one point and both windows'
  blocks are the whole [8, 4096] array, so the one write-back writes the body's result of the whole
  argument: entry (b, p) times the lane sum of the squares of row b, times the kernel's word for 1/16.
  The body's result as an index-by-index function of its loaded block is the generated `E1`; written
  here: that the input block is the argument array and the output block the result array (both at
  block index 0), hence the run's result array, and that at the extended reals `E1` is `rowScaled`.
-/
import proofs.«129249_j661424964229_1_alg».proof.Proof.Gen.KernelIdeal.Value
import proofs.«129249_j661424964229_1_alg».proof.Proof.RowLaw
import Idealize.ShloMosaic.PureOps.Ideal.Laws

noncomputable section

namespace Cert.KernelIdeal.Rows

open Cert.KernelIdeal Cert.KernelIdeal.Gen Cert.KernelIdeal.Value Cert.RowOuter
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem offsets_zero : (![0, 0] : Fin 2 → Nat) = fun _ => 0 := funext fun a => by fin_cases a <;> rfl

/-- Both windows sit at block index (0, 0) at the grid's one point. -/
theorem block_index_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The body's result for the output window is `E1` of the block it loaded (a load of the whole buffer). -/
theorem out_eq (x0 : Vec F S8x4096 .f32) : out0_1 x0 = E1 x0 := by
  funext y
  unfold out0_1
  rw [View.ld_unit_zero (S := S8x4096) offsets_zero]
  exact canon1_eq x0 y

/-- The input window's block is the argument array itself. -/
theorem iblk_whole (c : Dev nD) (t : Fin cfg0.N) (y : S8x4096.Idx) :
    (iblk m c 0 t : Vec F S8x4096 .f32) y = (V m c main_arg0 : S8x4096.Idx → Elt F .f32) y := by
  obtain ⟨e0, e1, -, -⟩ := block_index_zero t
  unfold iblk
  rw [View.read_apply]
  show V m c main_arg0 _ = V m c main_arg0 y
  congr 1
  funext a; apply Fin.ext
  match a with
  | ⟨0, _⟩ => show win0_0.index t (0 : Fin 2) * 8 + 1 * (y 0).val = (y 0).val; rw [e0]; omega
  | ⟨1, _⟩ => show win0_0.index t (1 : Fin 2) * 4096 + 1 * (y 1).val = (y 1).val; rw [e1]; omega

theorem iblk_eq (c : Dev nD) (t : Fin cfg0.N) :
    (iblk m c 0 t : Vec F S8x4096 .f32) = (V m c main_arg0 : S8x4096.Idx → Elt F .f32) :=
  funext (iblk_whole m c t)

/-- What the one point writes back is the output window's block of `E1` of the argument array. -/
theorem flushed_eq (c : Dev nD) (t : Fin cfg0.N) :
    (dats m 0 c).flushed 1 t = ((cfg0.win 1).blk t).view.read (Elt F) (E1 (V m c main_arg0)) := by
  rw [flushed1, out_eq]
  show (cfg0.win 1).cut (grid0.coords t) (E1 (iblk m c 0 t : Vec F S8x4096 .f32)) = _
  rw [iblk_eq]
  obtain ⟨-, -, e2, e3⟩ := block_index_zero t
  funext j
  show E1 (V m c main_arg0) ((cfg0.win 1).xinj (grid0.coords t) j) = E1 (V m c main_arg0) (((cfg0.win 1).blk t).view.emb j)
  refine congrArg (E1 (V m c main_arg0)) ?_
  funext a; apply Fin.ext
  match a with
  | ⟨0, _⟩ => show (j 0).val = win0_1.index t (0 : Fin 2) * 8 + 1 * (j 0).val; rw [e2]; omega
  | ⟨1, _⟩ => show (j 1).val = win0_1.index t (1 : Fin 2) * 4096 + 1 * (j 1).val; rw [e3]; omega

/-- Every index of the result array lies in that one block. -/
theorem covered (i : S8x4096.Idx) : ∃ t : Fin cfg0.N, (cfg0.win 1).flush t = true ∧ i ∈ ((cfg0.win 1).blk t).view.set := by
  refine ⟨t0_0, flush0_1 t0_0, ?_⟩
  obtain ⟨-, -, e2, e3⟩ := block_index_zero t0_0
  show i ∈ ((View.whole main_v0).slice (win0_1.rect t0_0)).set
  rw [View.set_slice_whole, Rect.mem_set_unit]
  intro a
  have h0 : (i 0).val < 8 := (i 0).isLt
  have h1 : (i 1).val < 4096 := (i 1).isLt
  match a with
  | ⟨0, _⟩ => show win0_1.index t0_0 (0 : Fin 2) * 8 ≤ (i 0).val ∧ (i 0).val < win0_1.index t0_0 (0 : Fin 2) * 8 + 8; rw [e2]; omega
  | ⟨1, _⟩ => show win0_1.index t0_0 (1 : Fin 2) * 4096 ≤ (i 1).val ∧ (i 1).val < win0_1.index t0_0 (1 : Fin 2) * 4096 + 4096; rw [e3]; omega

/-- So the result array ends at `E1` of the argument as launched. -/
theorem final (c : Dev nD) : (dats m 0 c).arrAt 1 cfg0.N = E1 (m ((c : Thread nD τ).loc main_arg0)) :=
  (dats m 0 c).arrAt_eq_of_cover 1 (E1 (V m c main_arg0)) (fun t _ => flushed_eq m c t) covered

/-- The run, read: the result array at `E1` of the argument, the argument unchanged. -/
theorem run : θ_run defs (onTc (τ := τ) (main (F := F))) ⟨m, fun _ => 0, ρ⟩ fun r => ∀ c : Dev nD,
      r.2.mem ((c : Thread nD τ).loc main_v0) = E1 (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (run_blocks m ρ)

/-- At the extended reals the body's function is `rowScaled`: the products are products, and the lane
    reduction over axis 1 at row `b` is the sum over `k` of the squares of the entries (b, k). -/
theorem E1_eq_rowScaled (x : Vec Ideal S8x4096 .f32) : E1 (F := Ideal) x = rowScaled x := by
  funext y
  obtain ⟨b, p, rfl⟩ : ∃ (b : Fin 8) (p : Fin 4096), y = ix2 b p := ⟨y 0, y 1, eq_ix2 y⟩
  have e0 : ix1_0 (ix2 b p) = ix2 b p := funext fun a => Fin.ext (by match a with | ⟨0, _⟩ => rfl | ⟨1, _⟩ => rfl)
  have hsum : multiReduction (F := Ideal) .add [1] S8 (mulf x x) 0x00000000#32 reduces_S8x4096_S8 (.inl rfl) rfl (ix1_1 (ix2 b p))
      = ∑ k : Fin 4096, x (ix2 b k) * x (ix2 b k) := by
    refine (Ideal.multiReduction_add_single (mulf x x) 0x00000000#32 reduces_S8x4096_S8 _ _ (ix1_1 (ix2 b p))).trans ?_
    refine Finset.sum_congr rfl fun k _ => ?_
    have ek : reduces_S8x4096_S8.lift (ix1_1 (ix2 b p)) k = ix2 b k :=
      funext fun a => Fin.ext (by match a with | ⟨0, _⟩ => rfl | ⟨1, _⟩ => rfl)
    rw [ek]
    rfl
  exact congrArg₂ (fun u s => (u * s) * Ideal.ofBits .f32 0x3D800000#32) (congrArg x e0) hsum

end Cert.KernelIdeal.Rows

end
-- ==== Proof.ReferenceRows.lean ====
/-
  The reference, read at an index. Its last stage at (b, p) is the 4096-term contraction, over k, of
  ((Σ_{q<1} x b p · x b k) / 16) with x b k: the first `dot_general` contracts the unit axis of the two
  copies of x (an outer product per row), the second contracts the outer product's last axis with the
  row again, and the closing reshape drops the unit axis. Over a real row that is `rowScaled` (RowLaw).
-/
import proofs.«129249_j661424964229_1_alg».proof.Proof.Gen.ReferenceIdeal.Read
import proofs.«129249_j661424964229_1_alg».proof.Proof.RowLaw

noncomputable section

namespace Cert.ReferenceIdeal.Rows

open Cert.ReferenceIdeal Cert.ReferenceIdeal.Gen Cert.ReferenceIdeal.Read Cert.RowOuter
open Idealize.ShloMosaic Idealize.ShloMosaic.ValueIdx

/-- The outer product's left factor at (b, p, k) is the entry (b, p) of the argument. -/
theorem left_of_outer (b : Fin 8) (p k : Fin 4096) (q : Fin 1) :
    idx_main_v0 (lidx_main_v1 (lidx_main_v4 (idx_main_v5 (ix2 b p)) k) q) = ix2 b p := by
  funext a; apply Fin.ext
  have hb := b.isLt; have hp := p.isLt
  match a with
  | ⟨0, _⟩ => show (b.val * 4096 + p.val) / 4096 = b.val; omega
  | ⟨1, _⟩ => show (b.val * 4096 + p.val) / 1 % 4096 = p.val; omega

/-- The outer product's right factor at (b, p, k) is the entry (b, k). -/
theorem right_of_outer (b : Fin 8) (p k : Fin 4096) (q : Fin 1) :
    idx_main_v0 (ridx_main_v1 (lidx_main_v4 (idx_main_v5 (ix2 b p)) k) q) = ix2 b k := by
  funext a; apply Fin.ext
  have hb := b.isLt; have hp := p.isLt
  match a with
  | ⟨0, _⟩ => show (b.val * 4096 + p.val) / 4096 = b.val; omega
  | ⟨1, _⟩ => rfl

/-- The second contraction's right operand at k is the entry (b, k). -/
theorem right_of_contract (b : Fin 8) (p k : Fin 4096) :
    idx_main_v0 (ridx_main_v4 (idx_main_v5 (ix2 b p)) k) = ix2 b k := by
  funext a; apply Fin.ext
  have hb := b.isLt; have hp := p.isLt
  match a with
  | ⟨0, _⟩ => show (b.val * 4096 + p.val) / 4096 = b.val; omega
  | ⟨1, _⟩ => rfl

/-- The reference's result is `rowScaled` of an argument whose entries are all real. -/
theorem result_eq (x : (⟨S8x4096, .f32⟩ : BufTy).Contents (Elt Ideal)) (hx : ∀ i, ∃ r : ℝ, x i = (r : EReal)) :
    val_main_v5 (F := Ideal) x = rowScaled x := by
  funext i
  obtain ⟨b, p, rfl⟩ : ∃ (b : Fin 8) (p : Fin 4096), i = ix2 b p := ⟨i 0, i 1, eq_ix2 i⟩
  rw [val_main_v5_apply, val_main_v4_apply]
  simp only [val_main_v3_apply, val_main_v1_apply, val_main_v2_apply, val_main_cst_apply, val_main_v0_apply,
    left_of_outer, right_of_outer, right_of_contract, Ideal.hostDivf_def, Ideal.ofBits_def]
  exact outer_contract_row (fun k => x (ix2 b k)) (fun k => hx (ix2 b k)) p

end Cert.ReferenceIdeal.Rows

end
-- ==== Proof.lean ====
/-
  Row-wise scaling by the sum of squares, against the explicit outer-product form.

  The kernel takes x : f32[8, 4096] in one block and writes  x[b, p] · (Σₖ x[b, k]²) · 2⁻⁴.
  The reference forms, per row b, the outer product x[b, ·] ⊗ x[b, ·] (a `dot_general` contracting a
  unit axis), divides it by 16, contracts it with x[b, ·] once more, and reshapes:
  Σₖ ((x[b, p] · x[b, k]) / 16) · x[b, k].
  At the extended reals the two agree wherever the row is finite: the kernel's word 0x3D800000 is the
  dyadic 1/16 exactly, dividing by the real 16 is multiplying by 1/16, and the factor x[b, p] · 1/16 is
  taken out of the sum over k — distributivity, which holds for real entries and is where the
  precondition (every entry finite) is used. Both programs are therefore run to the one function
  `rowScaled` of the argument array:
    · the kernel's result array after its run (Proof/KernelRows.lean: the one grid point writes back the
      body's result of the whole argument; the body's lane reduction is the row's sum of squares);
    · the reference's result (Proof/ReferenceRows.lean: its stages read at an index, then the law of
      Proof/RowLaw.lean over a row of reals, which Proof/FiniteRows.lean reads out of the precondition).
  The three frames are the programs' runs with the value dropped; the idealization rewrote nothing, so
  `preserves` has no conjunct.
-/
import proofs.«129249_j661424964229_1_alg».proof.Defs
import proofs.«129249_j661424964229_1_alg».proof.Proof.Gen.Kernel
import proofs.«129249_j661424964229_1_alg».proof.Proof.Gen.Kernel.Skeleton
import proofs.«129249_j661424964229_1_alg».proof.Proof.Gen.Kernel.Launch
import proofs.«129249_j661424964229_1_alg».proof.Proof.Gen.Kernel.Points
import proofs.«129249_j661424964229_1_alg».proof.Proof.Gen.Kernel.Frame
import proofs.«129249_j661424964229_1_alg».proof.Proof.Gen.KernelIdeal
import proofs.«129249_j661424964229_1_alg».proof.Proof.Gen.KernelIdeal.Skeleton
import proofs.«129249_j661424964229_1_alg».proof.Proof.Gen.KernelIdeal.Launch
import proofs.«129249_j661424964229_1_alg».proof.Proof.Gen.KernelIdeal.Points
import proofs.«129249_j661424964229_1_alg».proof.Proof.Gen.KernelIdeal.Frame
import proofs.«129249_j661424964229_1_alg».proof.Proof.Gen.ReferenceIdeal
import proofs.«129249_j661424964229_1_alg».proof.Proof.Gen.Pre_finite_inputs
import proofs.«129249_j661424964229_1_alg».proof.Proof.Gen.KernelIdeal.Value
import proofs.«129249_j661424964229_1_alg».proof.Proof.Gen.ReferenceIdeal.Run
import proofs.«129249_j661424964229_1_alg».proof.Proof.Gen.ReferenceIdeal.Read
import proofs.«129249_j661424964229_1_alg».proof.Proof.FiniteRows
import proofs.«129249_j661424964229_1_alg».proof.Proof.KernelRows
import proofs.«129249_j661424964229_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its argument as it found it. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on a finite argument, the kernel's result array and the reference's result
    both end at `rowScaled` of that argument. -/
theorem algebraic : Cert.algebraic_KernelIdeal_ReferenceIdeal := by
  intro m ρ m' ρ' hpre hagree
  refine ⟨fun c => Cert.RowOuter.rowScaled (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Rows.E1_eq_rowScaled _), (h c).2⟩)
      (Cert.KernelIdeal.Rows.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, hagree c]
    exact Cert.ReferenceIdeal.Rows.result_eq _ (Cert.RowOuter.real_of_pre _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
